-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S256x4096 : Shape := ⟨2, ![256, 4096]⟩
abbrev S1x4096 : Shape := ⟨2, ![1, 4096]⟩
abbrev S512x4096 : Shape := ⟨2, ![512, 4096]⟩
abbrev S4096x1024 : Shape := ⟨2, ![4096, 1024]⟩
abbrev S1x1024 : Shape := ⟨2, ![1, 1024]⟩
abbrev S512x1024 : Shape := ⟨2, ![512, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S1x4096, .f32⟩
  | .hbm, ⟨5, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S512x4096, .f32⟩
  | .local _ .vmem, ⟨5, _⟩ => ⟨S512x4096, .f32⟩
  | .local _ .vmem, ⟨6, _⟩ => ⟨S4096x1024, .bf16⟩
  | .local _ .vmem, ⟨7, _⟩ => ⟨S4096x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x4096.size a
  hwx1_1 : ∀ i : grid1.Coords, EltTy.bits .bf16 = 32 ∨ (Rect.block (s := S4096x4096) S4096x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x4096.size a
  hwx1_3 : ∀ i : grid1.Coords, EltTy.bits .f32 = 32 ∨ (Rect.block (s := S8192x4096) S512x1024.size (cc1_transform_3 i) (hinb1_3 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.CastRegion.lean ====
/-
  The first region copies the 4096 × 4096 weights into the half-width array sixteen row blocks at a time: grid point `t`
  reads rows 256·t … 256·t + 255 and writes them back to the same rows, each entry narrowed to the half-width format.
  At the extended reals narrowing is the identity, so after the region the half-width array holds the weights, entry for
  entry. The sixteen row blocks tile the array: row `r` lies in block `r / 256`.
-/
import proofs.«103072_g44427141710512_cont_8to1_c_84_10_alg».proof.Proof.Gen.KernelIdeal.Frame
import Idealize.ShloMosaic.Lib.Pipeline.Value
import Idealize.ShloMosaic.Lib.ValueIdx

set_option maxRecDepth 16384

noncomputable section

namespace Cert.KernelIdeal.CastRegion

open Cert.KernelIdeal Cert.KernelIdeal.Gen
open Idealize.ShloMosaic Idealize.ShloMosaic.TcCoe Idealize.SL.Sem
open Idealize.ShloMosaic.Pipeline (Dat)

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The weights narrowed entry by entry: what the half-width array ends holding. -/
abbrev narrowed (w : FVec Ideal S4096x4096 .f32) : FVec Ideal S4096x4096 .bf16 := truncf .bf16 w bitsLt_bf16_f32

/-- Narrowing changes no entry. -/
theorem narrowed_apply (w : FVec Ideal S4096x4096 .f32) (i : S4096x4096.Idx) : narrowed w i = w i := rfl

/-- Point `t` reads and writes row block `t`, all 4096 columns. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is its row block of the narrowed weights. -/
theorem flushed_eq (c : Dev nD) (t : Fin cfg0.N) :
    (dat0 V c).flushed 1 t = ((cfg0.win 1).blk t).view.read (Elt Ideal) (narrowed (V c main_arg1)) := by
  show (cfg0.win 1).cut (grid0.coords t) ((dat0 V c).after 1 t) = _
  rw [after0_1]
  unfold out0_1
  rw [View.canon_unit_zero hz]
  simp only [View.ld_unit_zero (S := S256x4096) hz]
  obtain ⟨e0, e1, e2, e3⟩ := block_index t
  funext j
  show (V c main_arg1 (((cfg0.win 0).blk t).view.emb j) : EReal) = V c main_arg1 (((cfg0.win 1).blk t).view.emb j)
  refine congrArg _ ?_
  funext a; apply Fin.ext
  match a with
  | ⟨0, _⟩ => show win0_0.index t (0 : Fin 2) * 256 + 1 * (j 0).val = win0_1.index t (0 : Fin 2) * 256 + 1 * (j 0).val; rw [e0, e2]
  | ⟨1, _⟩ => show win0_0.index t (1 : Fin 2) * 4096 + 1 * (j 1).val = win0_1.index t (1 : Fin 2) * 4096 + 1 * (j 1).val; rw [e1, e3]

/-- An index is in point `t`'s block iff each coordinate is in the block's range on its axis. -/
theorem mem_block (t : Fin cfg0.N) (i : S4096x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v0).slice (win0_1.rect t)).set ↔ _
  rw [View.set_slice_whole, Rect.mem_set_unit]
  exact Iff.rfl

/-- Every index lies in the block of the point its row selects. -/
theorem covered (i : S4096x4096.Idx) : ∃ t : Fin cfg0.N, (cfg0.win 1).flush t = true ∧ i ∈ ((cfg0.win 1).blk t).view.set := by
  have hN : cfg0.N = 16 := N_0
  have hi0 : (i 0).val < 4096 := (i 0).isLt
  have hi1 : (i 1).val < 4096 := (i 1).isLt
  refine ⟨⟨(i 0).val / 256, by rw [hN]; omega⟩, flush0_1 _, ?_⟩
  rw [mem_block]
  obtain ⟨-, -, e2, e3⟩ := block_index ⟨(i 0).val / 256, by rw [hN]; omega⟩
  intro a
  match a with
  | ⟨0, _⟩ => show win0_1.index _ (0 : Fin 2) * 256 ≤ (i 0).val ∧ (i 0).val < win0_1.index _ (0 : Fin 2) * 256 + 256; rw [e2]; show (i 0).val / 256 * 256 ≤ (i 0).val ∧ (i 0).val < (i 0).val / 256 * 256 + 256; omega
  | ⟨1, _⟩ => show win0_1.index _ (1 : Fin 2) * 4096 ≤ (i 1).val ∧ (i 1).val < win0_1.index _ (1 : Fin 2) * 4096 + 4096; rw [e3]; omega

/-- After the region the half-width array holds the narrowed weights as the region found them. -/
theorem final (c : Dev nD) : (dat0 V c).arrAt 1 cfg0.N = narrowed (V c main_arg1) :=
  (dat0 V c).arrAt_eq_of_cover 1 (narrowed (V c main_arg1)) (fun t _ => flushed_eq V c t) covered

end Cert.KernelIdeal.CastRegion

end
-- ==== Proof.MatmulBlock.lean ====
/-
  The second region is the product. Its grid is 4 column panels by 16 row blocks, the panel the slow coordinate: grid
  point `t` has panel n = t / 16 and row block m = t % 16. It reads rows 512·m … 512·m + 511 of the activations (all 4096
  columns), columns 1024·n … 1024·n + 1023 of the half-width weights (all 4096 rows) and the same 1024 columns of the one-row
  bias, and writes block (m, n) of the result: entry (p, q) of that block is

      (Σ k < 4096, xblock (p, k) · wblock (k, q)) + bblock (0, q)

  — the matrix unit's product into a zero accumulator is that plain sum at the extended reals, narrowing the activations to
  the half-width format changes nothing there, and the bias row is repeated down the block's 512 rows. Read through the
  blocks' positions this is entry (512·m + p, 1024·n + q) of ONE function of the three arrays as the region finds them,
  `blockAffine` below; the 64 blocks tile the result, so the result array ends holding it.
-/
import proofs.«103072_g44427141710512_cont_8to1_c_84_10_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MatmulRegion

open Cert.KernelIdeal Cert.KernelIdeal.Gen
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-! ## One block: the body's stored value at an index -/

/-- The product's operand indices: on the left operand the output's row and the contraction position, -/
theorem lhs_0 (i : S512x1024.Idx) (q : dot_S512x4096_S4096x1024_S512x1024_1_0_0_1_n_n.contr.Idx) :
    (dot_S512x4096_S4096x1024_S512x1024_1_0_0_1_n_n.lhsIdx i q 0).val = (i 0).val := by
  unfold DotDims.lhsIdx
  rw [dif_neg (show ¬(0 : Fin S512x4096.rank) ∈ dot_S512x4096_S4096x1024_S512x1024_1_0_0_1_n_n.lhsBatch by decide), dif_pos (show (0 : Fin S512x4096.rank) ∈ dot_S512x4096_S4096x1024_S512x1024_1_0_0_1_n_n.lhsNonContracting by decide)]
  rfl
theorem lhs_1 (i : S512x1024.Idx) (q : dot_S512x4096_S4096x1024_S512x1024_1_0_0_1_n_n.contr.Idx) :
    (dot_S512x4096_S4096x1024_S512x1024_1_0_0_1_n_n.lhsIdx i q 1).val = (q ⟨0, by decide⟩).val :=
  dot_S512x4096_S4096x1024_S512x1024_1_0_0_1_n_n.lhsIdx_val_of_single rfl i q
/-- on the right operand the contraction position and the output's column. -/
theorem rhs_0 (i : S512x1024.Idx) (q : dot_S512x4096_S4096x1024_S512x1024_1_0_0_1_n_n.contr.Idx) :
    (dot_S512x4096_S4096x1024_S512x1024_1_0_0_1_n_n.rhsIdx i q 0).val = (q ⟨0, by decide⟩).val :=
  dot_S512x4096_S4096x1024_S512x1024_1_0_0_1_n_n.rhsIdx_val_of_single rfl i q
theorem rhs_1 (i : S512x1024.Idx) (q : dot_S512x4096_S4096x1024_S512x1024_1_0_0_1_n_n.contr.Idx) :
    (dot_S512x4096_S4096x1024_S512x1024_1_0_0_1_n_n.rhsIdx i q 1).val = (i 1).val := by
  unfold DotDims.rhsIdx
  rw [dif_neg (show ¬(1 : Fin S4096x1024.rank) ∈ dot_S512x4096_S4096x1024_S512x1024_1_0_0_1_n_n.rhsBatch by decide), dif_pos (show (1 : Fin S4096x1024.rank) ∈ dot_S512x4096_S4096x1024_S512x1024_1_0_0_1_n_n.rhsNonContracting by decide)]
  rfl

/-- Block entry (p, q) reads the activations' block at (p, k), -/
abbrev lhsAt (i : S512x1024.Idx) (k : Fin 4096) : S512x4096.Idx := fun a => match a with
  | ⟨0, _⟩ => ⟨(i 0).val, (i 0).isLt⟩
  | ⟨1, _⟩ => ⟨k.val, k.isLt⟩
/-- the weights' panel at (k, q), -/
abbrev rhsAt (i : S512x1024.Idx) (k : Fin 4096) : S4096x1024.Idx := fun a => match a with
  | ⟨0, _⟩ => ⟨k.val, k.isLt⟩
  | ⟨1, _⟩ => ⟨(i 1).val, (i 1).isLt⟩
/-- and the bias row's piece at (0, q). -/
abbrev rowAt (i : S512x1024.Idx) : S1x1024.Idx := fun a => match a with
  | ⟨0, _⟩ => ⟨0, Nat.one_pos⟩
  | ⟨1, _⟩ => ⟨(i 1).val, (i 1).isLt⟩

/-- The product into the zero accumulator, read at a block index: the plain sum over the contracted axis. -/
theorem product_apply (l : FVec Ideal S512x4096 .bf16) (r : FVec Ideal S4096x1024 .bf16) (i : S512x1024.Idx) :
    matmul dot_S512x4096_S4096x1024_S512x1024_1_0_0_1_n_n none l r (constant S512x1024 .f32 0x00000000#32) i
      = ∑ k : Fin 4096, l (lhsAt i k) * r (rhsAt i k) := by
  simp only [matmul]
  rw [Ideal.matmul_constant_zero_apply, ← Equiv.sum_comp (ValueIdx.contrEquiv1 dot_S512x4096_S4096x1024_S512x1024_1_0_0_1_n_n 4096 rfl rfl).symm]
  refine Finset.sum_congr rfl fun k _ => ?_
  have hk := ValueIdx.contrEquiv1_symm_val dot_S512x4096_S4096x1024_S512x1024_1_0_0_1_n_n 4096 rfl rfl k
  have el : dot_S512x4096_S4096x1024_S512x1024_1_0_0_1_n_n.lhsIdx i ((ValueIdx.contrEquiv1 dot_S512x4096_S4096x1024_S512x1024_1_0_0_1_n_n 4096 rfl rfl).symm k) = lhsAt i k := funext fun a => Fin.ext (by
    match a with
    | ⟨0, _⟩ => exact lhs_0 _ _
    | ⟨1, _⟩ => exact (lhs_1 _ _).trans hk)
  have er : dot_S512x4096_S4096x1024_S512x1024_1_0_0_1_n_n.rhsIdx i ((ValueIdx.contrEquiv1 dot_S512x4096_S4096x1024_S512x1024_1_0_0_1_n_n 4096 rfl rfl).symm k) = rhsAt i k := funext fun a => Fin.ext (by
    match a with
    | ⟨0, _⟩ => exact (rhs_0 _ _).trans hk
    | ⟨1, _⟩ => exact rhs_1 _ _)
  rw [el, er]

/-- The one-row bias repeated down the block's rows, read at a block index. -/
theorem bias_apply (v : FVec Ideal S1x1024 .f32) (i : S512x1024.Idx) :
    broadcastTo S512x1024 v broadcasts_S1x1024_S512x1024 i = v (rowAt i) :=
  broadcastTo_apply v broadcasts_S1x1024_S512x1024 i (rowAt i) (fun a => match a with
    | ⟨0, _⟩ => by show 0 = if (1 : Nat) = 1 then 0 else (i 0).val; rw [if_pos rfl]
    | ⟨1, _⟩ => by show (i 1).val = if (1024 : Nat) = 1 then 0 else (i 1).val; rw [if_neg (by decide)])

/-- The value the body stores, at a block index, from the three blocks it loaded. -/
theorem payload_apply (x0 : FVec Ideal S512x4096 .f32) (x1 : FVec Ideal S4096x1024 .bf16) (x2 : FVec Ideal S1x1024 .f32) (i : S512x1024.Idx) :
    k1_pay1 (F := Ideal) x0 x1 x2 i = (∑ k : Fin 4096, x0 (lhsAt i k) * x1 (rhsAt i k)) + x2 (rowAt i) := by
  unfold k1_pay1
  rw [shapeCast_self, shapeCast_self]
  show matmul dot_S512x4096_S4096x1024_S512x1024_1_0_0_1_n_n none (truncf .bf16 x0 bitsLt_bf16_f32) x1 (constant S512x1024 .f32 0x00000000#32) i
      + broadcastTo S512x1024 x2 broadcasts_S1x1024_S512x1024 i = _
  rw [product_apply, bias_apply]
  rfl

end Cert.KernelIdeal.MatmulRegion

end
-- ==== Proof.Affine.lean ====
/-
  The result both programs compute, as ONE function of the three argument arrays over the extended reals:
  for activations `x` (8192 rows of 4096), weights `w` (4096 by 4096) and a bias row `b` (4096 entries),

      affine x w b (r, c) = (Σ k < 4096, x (r, k) · w (k, c)) + b c.

  The sum is a `Finset` sum over the contracted axis, so no order or grouping of the 4096 products is part of it;
  the bias is added once, after the sum. The three index functions below say which entry of each argument an output
  index reads at contraction position `k`.
-/
import Idealize.ShloMosaic.PureOps.Ideal
import Idealize.ShloMosaic.Lib.ValueIdx

noncomputable section

namespace Cert.Affine

open Idealize.ShloMosaic

/-- The activations' and the result's shape, the weights' shape, the bias row's shape. -/
abbrev SX : Shape := ⟨2, ![8192, 4096]⟩
abbrev SW : Shape := ⟨2, ![4096, 4096]⟩
abbrev SB : Shape := ⟨1, ![4096]⟩

/-- Output index (r, c) reads the activations at (r, k). -/
abbrev actAt (i : SX.Idx) (k : Fin 4096) : SX.Idx := fun a => match a with
  | ⟨0, _⟩ => ⟨(i 0).val, (i 0).isLt⟩
  | ⟨1, _⟩ => ⟨k.val, k.isLt⟩
/-- Output index (r, c) reads the weights at (k, c). -/
abbrev wgtAt (i : SX.Idx) (k : Fin 4096) : SW.Idx := fun a => match a with
  | ⟨0, _⟩ => ⟨k.val, k.isLt⟩
  | ⟨1, _⟩ => ⟨(i 1).val, (i 1).isLt⟩
/-- Output index (r, c) reads the bias at c. -/
abbrev biasAt (i : SX.Idx) : SB.Idx := fun a => match a with
  | ⟨0, _⟩ => ⟨(i 1).val, (i 1).isLt⟩

/-- The affine map `x · w + b`, entry by entry, on the extended reals. -/
def affine (x : FVec Ideal SX .f32) (w : FVec Ideal SW .f32) (b : FVec Ideal SB .f32) : FVec Ideal SX .f32 :=
  fun i => (∑ k : Fin 4096, x (actAt i k) * w (wgtAt i k)) + b (biasAt i)

theorem affine_apply (x : FVec Ideal SX .f32) (w : FVec Ideal SW .f32) (b : FVec Ideal SB .f32) (i : SX.Idx) :
    affine x w b i = (∑ k : Fin 4096, x (actAt i k) * w (wgtAt i k)) + b (biasAt i) := rfl

end Cert.Affine

end
-- ==== Proof.MatmulRegion.lean ====
/-
  From the second region's 64 blocks to its result array. With the arrays as the region finds them — activations `x`,
  half-width weights `w`, one-row bias `b` — the result array ends holding

      blockAffine x w b (r, c) = (Σ k < 4096, x (r, k) · w (k, c)) + b (0, c),

  because grid point `t` (panel n = t / 16, row block m = t % 16) writes back exactly block (m, n) of that function: its
  activations' block is rows 512·m + p, its weights' panel and bias piece are columns 1024·n + q, and the body's stored
  value at (p, q) is the block-level sum plus bias. Every result index (r, c) lies in the block of the point
  16·(c / 1024) + r / 512, and every point writes back.
-/
import proofs.«103072_g44427141710512_cont_8to1_c_84_10_alg».proof.Proof.MatmulBlock
import proofs.«103072_g44427141710512_cont_8to1_c_84_10_alg».proof.Proof.Affine

set_option maxRecDepth 16384

noncomputable section

namespace Cert.KernelIdeal.MatmulRegion

open Cert.KernelIdeal Cert.KernelIdeal.Gen Cert.Affine
open Idealize.ShloMosaic Idealize.ShloMosaic.TcCoe Idealize.SL.Sem
open Idealize.ShloMosaic.Pipeline (Dat)

-- the buffers' contents when the region is entered
variable (V : (c : Dev nD) → (b : Ref sig .tc) → Buf (Elt Ideal) ((c : Thread nD τ).loc b))

/-- Result index (r, c) reads the one-row bias at (0, c). -/
abbrev biasRowAt (i : S8192x4096.Idx) : S1x4096.Idx := fun a => match a with
  | ⟨0, _⟩ => ⟨0, Nat.one_pos⟩
  | ⟨1, _⟩ => ⟨(i 1).val, (i 1).isLt⟩

/-- What the result array ends holding, from the three arrays the region reads. -/
def blockAffine (x : FVec Ideal S8192x4096 .f32) (w : FVec Ideal S4096x4096 .bf16) (b : FVec Ideal S1x4096 .f32) : FVec Ideal S8192x4096 .f32 :=
  fun i => (∑ k : Fin 4096, x (actAt i k) * w (wgtAt i k)) + b (biasRowAt i)

/-- The three arrays and, at a grid point, the three blocks, at their literal types. -/
abbrev xarr (c : Dev nD) : FVec Ideal S8192x4096 .f32 := V c main_arg0
abbrev warr (c : Dev nD) : FVec Ideal S4096x4096 .bf16 := V c main_v0
abbrev barr (c : Dev nD) : FVec Ideal S1x4096 .f32 := V c main_v1
abbrev xblk (c : Dev nD) (t : Fin cfg1.N) : FVec Ideal S512x4096 .f32 := iblk1 V c 0 t
abbrev wblk (c : Dev nD) (t : Fin cfg1.N) : FVec Ideal S4096x1024 .bf16 := iblk1 V c 1 t
abbrev bblk (c : Dev nD) (t : Fin cfg1.N) : FVec Ideal S1x1024 .f32 := iblk1 V c 2 t

/-- The printed index maps over the 64 points: row block t % 16, column panel t / 16. -/
theorem block_index : ∀ t : Fin cfg1.N,
    win1_0.index t (0 : Fin 2) = t.val % 16 ∧ win1_0.index t (1 : Fin 2) = 0
    ∧ win1_1.index t (0 : Fin 2) = 0 ∧ win1_1.index t (1 : Fin 2) = t.val / 16
    ∧ win1_2.index t (0 : Fin 2) = 0 ∧ win1_2.index t (1 : Fin 2) = t.val / 16
    ∧ win1_3.index t (0 : Fin 2) = t.val % 16 ∧ win1_3.index t (1 : Fin 2) = t.val / 16 :=
  (by decide +kernel : ∀ t : Fin grid1.N, _)

/-- The activations' block at point `t`: rows 512·(t % 16) + p, every column. -/
theorem act_block (c : Dev nD) (t : Fin cfg1.N) (y : S512x4096.Idx) (i : S8192x4096.Idx)
    (h0 : (i 0).val = t.val % 16 * 512 + (y 0).val) (h1 : (i 1).val = (y 1).val) :
    xblk V c t y = xarr V c i := by
  obtain ⟨e0, e1, -⟩ := block_index t
  show iblk1 V c 0 t y = _
  unfold iblk1
  rw [View.read_apply]
  show (V c main_arg0 _ : EReal) = V c main_arg0 i
  refine congrArg _ ?_
  funext a; apply Fin.ext
  match a with
  | ⟨0, _⟩ => show win1_0.index t (0 : Fin 2) * 512 + 1 * (y 0).val = (i 0).val; rw [e0, h0]; omega
  | ⟨1, _⟩ => show win1_0.index t (1 : Fin 2) * 4096 + 1 * (y 1).val = (i 1).val; rw [e1, h1]; omega

/-- The weights' panel at point `t`: every row, columns 1024·(t / 16) + q. -/
theorem wgt_block (c : Dev nD) (t : Fin cfg1.N) (y : S4096x1024.Idx) (i : S4096x4096.Idx)
    (h0 : (i 0).val = (y 0).val) (h1 : (i 1).val = t.val / 16 * 1024 + (y 1).val) :
    wblk V c t y = warr V c i := by
  obtain ⟨-, -, e2, e3, -⟩ := block_index t
  show iblk1 V c 1 t y = _
  unfold iblk1
  rw [View.read_apply]
  show (V c main_v0 _ : EReal) = V c main_v0 i
  refine congrArg _ ?_
  funext a; apply Fin.ext
  match a with
  | ⟨0, _⟩ => show win1_1.index t (0 : Fin 2) * 4096 + 1 * (y 0).val = (i 0).val; rw [e2, h0]; omega
  | ⟨1, _⟩ => show win1_1.index t (1 : Fin 2) * 1024 + 1 * (y 1).val = (i 1).val; rw [e3, h1]; omega

/-- The bias row's piece at point `t`: columns 1024·(t / 16) + q of the one row. -/
theorem bias_block (c : Dev nD) (t : Fin cfg1.N) (y : S1x1024.Idx) (i : S1x4096.Idx)
    (h0 : (i 0).val = (y 0).val) (h1 : (i 1).val = t.val / 16 * 1024 + (y 1).val) :
    bblk V c t y = barr V c i := by
  obtain ⟨-, -, -, -, e4, e5, -⟩ := block_index t
  show iblk1 V c 2 t y = _
  unfold iblk1
  rw [View.read_apply]
  show (V c main_v1 _ : EReal) = V c main_v1 i
  refine congrArg _ ?_
  funext a; apply Fin.ext
  match a with
  | ⟨0, _⟩ => show win1_2.index t (0 : Fin 2) * 1 + 1 * (y 0).val = (i 0).val; rw [e4, h0]; omega
  | ⟨1, _⟩ => show win1_2.index t (1 : Fin 2) * 1024 + 1 * (y 1).val = (i 1).val; rw [e5, h1]; omega

/-- What point `t` writes back is its block of `blockAffine` of the arrays as the region found them. -/
theorem flushed_eq (c : Dev nD) (t : Fin cfg1.N) :
    (dat1 V c).flushed 3 t = ((cfg1.win 3).blk t).view.read (Elt Ideal) (blockAffine (xarr V c) (warr V c) (barr V c)) := by
  show (cfg1.win 3).cut (grid1.coords t) ((dat1 V c).after 3 t) = _
  rw [after1_3]
  unfold out1_3
  rw [View.canon_unit_zero hz]
  simp only [View.ld_unit_zero (S := S512x4096) hz, View.ld_unit_zero (S := S4096x1024) hz, View.ld_unit_zero (S := S1x1024) hz]
  obtain ⟨-, -, -, -, -, -, e6, e7⟩ := block_index t
  funext j
  show k1_pay1 (F := Ideal) (xblk V c t) (wblk V c t) (bblk V c t) j
    = blockAffine (xarr V c) (warr V c) (barr V c) (((cfg1.win 3).blk t).view.emb j)
  refine (payload_apply (xblk V c t) (wblk V c t) (bblk V c t) j).trans ?_
  show _ = (∑ k : Fin 4096, xarr V c (actAt (((cfg1.win 3).blk t).view.emb j) k) * warr V c (wgtAt (((cfg1.win 3).blk t).view.emb j) k))
    + barr V c (biasRowAt (((cfg1.win 3).blk t).view.emb j))
  have r0 : ((((cfg1.win 3).blk t).view.emb j) 0).val = t.val % 16 * 512 + (j 0).val := by
    show win1_3.index t (0 : Fin 2) * 512 + 1 * (j 0).val = _; rw [e6]; omega
  have r1 : ((((cfg1.win 3).blk t).view.emb j) 1).val = t.val / 16 * 1024 + (j 1).val := by
    show win1_3.index t (1 : Fin 2) * 1024 + 1 * (j 1).val = _; rw [e7]; omega
  refine congrArg₂ (· + ·) (Finset.sum_congr rfl fun k _ => congrArg₂ (· * ·)
    (act_block V c t (lhsAt j k) (actAt (((cfg1.win 3).blk t).view.emb j) k) r0 rfl)
    (wgt_block V c t (rhsAt j k) (wgtAt (((cfg1.win 3).blk t).view.emb j) k) rfl r1))
    (bias_block V c t (rowAt j) (biasRowAt (((cfg1.win 3).blk t).view.emb j)) rfl r1)

/-- An index is in point `t`'s block iff each coordinate is in the block's range on its axis. -/
theorem mem_block (t : Fin cfg1.N) (i : S8192x4096.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v2).slice (win1_3.rect t)).set ↔ _
  rw [View.set_slice_whole, Rect.mem_set_unit]
  exact Iff.rfl

/-- Every result index lies in the block of the point its column panel and row block select. -/
theorem covered (i : S8192x4096.Idx) : ∃ t : Fin cfg1.N, (cfg1.win 3).flush t = true ∧ i ∈ ((cfg1.win 3).blk t).view.set := by
  have hN : cfg1.N = 64 := N_1
  have hi0 : (i 0).val < 8192 := (i 0).isLt
  have hi1 : (i 1).val < 4096 := (i 1).isLt
  have ht : (i 1).val / 1024 * 16 + (i 0).val / 512 < cfg1.N := by rw [hN]; omega
  refine ⟨⟨(i 1).val / 1024 * 16 + (i 0).val / 512, ht⟩, flush1_3 _, ?_⟩
  rw [mem_block]
  obtain ⟨-, -, -, -, -, -, e6, e7⟩ := block_index ⟨(i 1).val / 1024 * 16 + (i 0).val / 512, ht⟩
  intro a
  match a with
  | ⟨0, _⟩ =>
    show win1_3.index _ (0 : Fin 2) * 512 ≤ (i 0).val ∧ (i 0).val < win1_3.index _ (0 : Fin 2) * 512 + 512
    rw [e6]
    show ((i 1).val / 1024 * 16 + (i 0).val / 512) % 16 * 512 ≤ (i 0).val ∧ (i 0).val < ((i 1).val / 1024 * 16 + (i 0).val / 512) % 16 * 512 + 512
    omega
  | ⟨1, _⟩ =>
    show win1_3.index _ (1 : Fin 2) * 1024 ≤ (i 1).val ∧ (i 1).val < win1_3.index _ (1 : Fin 2) * 1024 + 1024
    rw [e7]
    show ((i 1).val / 1024 * 16 + (i 0).val / 512) / 16 * 1024 ≤ (i 1).val ∧ (i 1).val < ((i 1).val / 1024 * 16 + (i 0).val / 512) / 16 * 1024 + 1024
    omega

/-- After the region the result array holds `blockAffine` of the arrays as the region found them. -/
theorem final (c : Dev nD) : (dat1 V c).arrAt 3 cfg1.N = blockAffine (xarr V c) (warr V c) (barr V c) :=
  (dat1 V c).arrAt_eq_of_cover 3 (blockAffine (xarr V c) (warr V c) (barr V c)) (fun t _ => flushed_eq V c t) covered

end Cert.KernelIdeal.MatmulRegion

end
-- ==== Proof.Between.lean ====
/-
  What the second region finds when it is entered. Between the two regions the host reshapes the bias to one row and
  touches nothing else; the first region wrote only the half-width weights. So the second region finds the activations as
  launched, the half-width weights as the first region left them, and the bias as a 1 × 4096 row with the launched entries.
-/
import proofs.«103072_g44427141710512_cont_8to1_c_84_10_alg».proof.Proof.Gen.KernelIdeal.Frame
import Idealize.ShloMosaic.Lib.StableHlo.Run

set_option maxRecDepth 16384

noncomputable section

namespace Cert.KernelIdeal.Between

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The activations are as launched. -/
theorem entry_act (c : Dev nD) : V2 m ρ c main_arg0 = m ((c : Thread nD τ).loc main_arg0) := by
  show StableHlo.after hostOps1 (W1 m ρ c) (Proc.devRef .tc main_arg0) = _
  after_results
  exact W1_of_ne m ρ c main_arg0 (by decide)

/-- The half-width weights are what the first region's write-backs left. -/
theorem entry_wgt (c : Dev nD) : V2 m ρ c main_v0 = (dat0 (V0 m ρ) c).arrAt 1 cfg0.N := by
  show StableHlo.after hostOps1 (W1 m ρ c) (Proc.devRef .tc main_v0) = _
  after_results
  exact W1_arr m ρ c 1

/-- The bias is the launched bias as one row. -/
theorem entry_bias (c : Dev nD) :
    V2 m ρ c main_v1 = shapeCast S1x4096 (m ((c : Thread nD τ).loc main_arg2)) shapeCasts_S4096_S1x4096 := by
  show StableHlo.after hostOps1 (W1 m ρ c) (Proc.devRef .tc main_v1) = _
  after_results
  rw [W1_of_ne m ρ c main_arg2 (by decide)]
  rfl

/-- The first region finds the weights as launched. -/
theorem entry_wgt0 (c : Dev nD) : V0 m ρ c main_arg1 = m ((c : Thread nD τ).loc main_arg1) := rfl

end Cert.KernelIdeal.Between

end
-- ==== Proof.KernelValue.lean ====
/-
  The idealized kernel's result, as one function of its launched arguments. The run ends with the result array at what
  the second region's write-backs leave; that is `blockAffine` of what the second region found — the launched activations,
  the weights as the first region narrowed them (no entry changed), and the launched bias laid out as one row. Reading
  the one-row bias at (0, c) is reading the bias at c, so the whole is `affine` of the launched arguments.
-/
import proofs.«103072_g44427141710512_cont_8to1_c_84_10_alg».proof.Proof.KernelIdealRun
import proofs.«103072_g44427141710512_cont_8to1_c_84_10_alg».proof.Proof.CastRegion
import proofs.«103072_g44427141710512_cont_8to1_c_84_10_alg».proof.Proof.MatmulRegion
import proofs.«103072_g44427141710512_cont_8to1_c_84_10_alg».proof.Proof.Between
import Idealize.ShloMosaic.Lib.ValueLayout

set_option maxRecDepth 16384

noncomputable section

namespace Cert.KernelIdeal.KernelValue

open Cert.KernelIdeal Cert.KernelIdeal.Gen Cert.Affine
open Idealize.ShloMosaic Idealize.ShloMosaic.TcCoe Idealize.SL.Sem

/-- With the weights narrowed entry by entry and the bias as one row, the second region's function is `affine`. -/
theorem blockAffine_eq (x : FVec Ideal S8192x4096 .f32) (w : FVec Ideal S4096x4096 .f32) (b : FVec Ideal S4096 .f32) :
    MatmulRegion.blockAffine x (CastRegion.narrowed w) (shapeCast S1x4096 b shapeCasts_S4096_S1x4096) = affine x w b := by
  funext i
  show (∑ k : Fin 4096, x (actAt i k) * w (wgtAt i k)) + shapeCast S1x4096 b shapeCasts_S4096_S1x4096 (MatmulRegion.biasRowAt i)
    = (∑ k : Fin 4096, x (actAt i k) * w (wgtAt i k)) + b (biasAt i)
  refine congrArg _ ?_
  exact shapeCast_apply b shapeCasts_S4096_S1x4096 (MatmulRegion.biasRowAt i) (biasAt i) (by
    rw [Shape.rowMajor_val_two, Shape.rowMajor_val_one]
    show (i 1).val = 0 * 4096 + (i 1).val
    omega)

variable (m : (ℓ : Loc nD τ sig) → Buf (Elt Ideal) ℓ) (ρ : Dev nD → PrngReg)

/-- The result array's contents at the run's last boundary: `affine` of the launched arguments. -/
theorem result_eq (c : Dev nD) :
    W3 m ρ c (Proc.devRef .tc main_v2)
      = affine (m ((c : Thread nD τ).loc main_arg0)) (m ((c : Thread nD τ).loc main_arg1)) (m ((c : Thread nD τ).loc main_arg2)) := by
  refine (W3_arr m ρ c 3).trans ?_
  refine (MatmulRegion.final (V2 m ρ) c).trans ?_
  have ea : MatmulRegion.xarr (V2 m ρ) c = m ((c : Thread nD τ).loc main_arg0) := Between.entry_act m ρ c
  have ew : MatmulRegion.warr (V2 m ρ) c = CastRegion.narrowed (m ((c : Thread nD τ).loc main_arg1)) :=
    (Between.entry_wgt m ρ c).trans (CastRegion.final (V0 m ρ) c)
  have eb : MatmulRegion.barr (V2 m ρ) c = shapeCast S1x4096 (m ((c : Thread nD τ).loc main_arg2)) shapeCasts_S4096_S1x4096 :=
    Between.entry_bias m ρ c
  rw [ea, ew, eb]
  exact blockAffine_eq _ _ _

/-- Every weakly fair execution of the idealized kernel's @main terminates, nothing faulting, with the result array at
    `affine` of the launched arguments and the arguments unchanged. -/
theorem run : θ_run defs (onTc (τ := τ) (main (F := Ideal))) ⟨m, fun _ => 0, ρ⟩ (fun r => ∀ c : Dev nD,
      r.2.mem ((c.tc : Thread nD τ).loc main_v2)
        = affine (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (GenP.run_main m ρ)

end Cert.KernelIdeal.KernelValue

end
-- ==== Proof.RefValue.lean ====
/-
  The reference computes `affine`: its `dot_general` contracts the activations' second axis with the weights' first, which
  at the extended reals is the plain sum over `k` of x (r, k) · w (k, c); the bias, broadcast first to one row and then
  down the 8192 rows, is read at the output's column; and the host's addition is the extended reals' addition. The
  operation-by-operation reads are the generated ones; what is shown here is that the index functions they compose are
  the specification's.
-/
import proofs.«103072_g44427141710512_cont_8to1_c_84_10_alg».proof.Proof.Gen.ReferenceIdeal.Read
import proofs.«103072_g44427141710512_cont_8to1_c_84_10_alg».proof.Proof.Affine

noncomputable section

namespace Cert.ReferenceIdeal.RefValue

open Cert.ReferenceIdeal Cert.ReferenceIdeal.Read Cert.Affine Idealize.ShloMosaic

theorem lidx_eq (i : S8192x4096.Idx) (k : Fin 4096) : lidx_main_v0 i k = actAt i k :=
  funext fun a => by match a with | ⟨0, _⟩ => rfl | ⟨1, _⟩ => rfl
theorem ridx_eq (i : S8192x4096.Idx) (k : Fin 4096) : ridx_main_v0 i k = wgtAt i k :=
  funext fun a => by match a with | ⟨0, _⟩ => rfl | ⟨1, _⟩ => rfl
theorem bidx_eq (i : S8192x4096.Idx) : idx_main_v1 (idx_main_v2 i) = biasAt i :=
  funext fun a => by match a with | ⟨0, _⟩ => rfl

/-- The reference's result term is `affine` of its three arguments. -/
theorem result_eq (x : FVec Ideal S8192x4096 .f32) (w : FVec Ideal S4096x4096 .f32) (b : FVec Ideal S4096 .f32) :
    val_main_v3 (F := Ideal) x w b = affine x w b := by
  funext i
  rw [val_main_v3_apply, val_main_v0_apply, val_main_v2_apply, val_main_v1_apply, affine_apply, bidx_eq]
  simp only [lidx_eq, ridx_eq, Ideal.addf_def]

end Cert.ReferenceIdeal.RefValue

end
-- ==== Proof.lean ====
/-
  The certificate of a dense layer computed in two launches against its one-line reference.
  Kernel: the 4096 × 4096 weights are first narrowed to the half-width format (one launch, sixteen row blocks); then a
  second launch, over 4 column panels by 16 row blocks, forms each 512 × 1024 block of the result as the product of the
  activations' row block (narrowed on the way in) with the weights' column panel, summed over all 4096 contraction
  positions into a zero accumulator, plus the bias row's matching piece. Reference: activations times weights, plus the
  bias broadcast down the rows.
  Over the extended reals narrowing is the identity and both products are the plain sum Σ k, x (r, k) · w (k, c), so both
  programs end with (Σ k, x (r, k) · w (k, c)) + b c at every result index (r, c): `Cert.Affine.affine`. No rearrangement
  of the sum is needed, so the finiteness of the inputs is never used. The three frames are the programs' runs with the
  result dropped; the idealization rewrote nothing, so `preserves` is trivial.
-/
import proofs.«103072_g44427141710512_cont_8to1_c_84_10_alg».proof.Defs
import proofs.«103072_g44427141710512_cont_8to1_c_84_10_alg».proof.Proof.Gen.Kernel
import proofs.«103072_g44427141710512_cont_8to1_c_84_10_alg».proof.Proof.Gen.Kernel.Skeleton
import proofs.«103072_g44427141710512_cont_8to1_c_84_10_alg».proof.Proof.Gen.Kernel.Launch
import proofs.«103072_g44427141710512_cont_8to1_c_84_10_alg».proof.Proof.Gen.Kernel.Points
import proofs.«103072_g44427141710512_cont_8to1_c_84_10_alg».proof.Proof.Gen.Kernel.Frame
import proofs.«103072_g44427141710512_cont_8to1_c_84_10_alg».proof.Proof.Gen.KernelIdeal
import proofs.«103072_g44427141710512_cont_8to1_c_84_10_alg».proof.Proof.Gen.KernelIdeal.Skeleton
import proofs.«103072_g44427141710512_cont_8to1_c_84_10_alg».proof.Proof.Gen.KernelIdeal.Launch
import proofs.«103072_g44427141710512_cont_8to1_c_84_10_alg».proof.Proof.Gen.KernelIdeal.Points
import proofs.«103072_g44427141710512_cont_8to1_c_84_10_alg».proof.Proof.Gen.KernelIdeal.Frame
import proofs.«103072_g44427141710512_cont_8to1_c_84_10_alg».proof.Proof.Gen.ReferenceIdeal
import proofs.«103072_g44427141710512_cont_8to1_c_84_10_alg».proof.Proof.Gen.Pre_finite_inputs
import proofs.«103072_g44427141710512_cont_8to1_c_84_10_alg».proof.Proof.Gen.ReferenceIdeal.Run
import proofs.«103072_g44427141710512_cont_8to1_c_84_10_alg».proof.Proof.Gen.ReferenceIdeal.Read
import proofs.«103072_g44427141710512_cont_8to1_c_84_10_alg».proof.Proof.KernelValue
import proofs.«103072_g44427141710512_cont_8to1_c_84_10_alg».proof.Proof.RefValue
import Idealize.ShloMosaic.Adequacy
import Idealize.ShloMosaic.Init

noncomputable section

namespace Cert.Proof

open Idealize.ShloMosaic Idealize.SL.Sem Cert.Kernel

/-- The three programs run, and the arguments end as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the three arguments both idealized programs end with the result at `affine` of them. -/
theorem algebraic : Cert.algebraic_KernelIdeal_ReferenceIdeal := by
  intro m ρ m' ρ' _ hagree
  refine ⟨fun c => Cert.Affine.affine (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
